-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S16384x8192 : Shape := ⟨2, ![16384, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  main_v53

def fn_part2 {F : FTy → Type} [FloatOps F] (main_arg7 : FVec F S16384x8192 .f32) (main_arg8 : FVec F S8192 .f32) (main_arg9 : FVec F S16384x8192 .f32) (main_arg10 : FVec F S8192 .f32) (main_v33 : IVec S_ 1) : IVec S_ 1 :=
  let main_v34 : FVec F S16384x8192 .f32 := Host.absf main_arg7
  let main_cst_12 : FVec F S_ .f32 := constant S_ .f32 0x7F800000#32
  let main_v35 : FVec F S16384x8192 .f32 := broadcastInDim S16384x8192 ![] bcast_S_S16384x8192 main_cst_12
  let main_v36 : IVec S16384x8192 1 := cmpf .olt main_v34 main_v35
  let main_c_13 : IVec S_ 1 := constantI S_ 1 1#1
  let main_v37 : IVec S_ 1 := (fun x v => Host.reduce IntOp.andi x v reducesTo_S16384x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S16384x8192 .f32 := Host.absf main_arg9
  let main_cst_16 : FVec F S_ .f32 := constant S_ .f32 0x7F800000#32
  let main_v45 : FVec F S16384x8192 .f32 := broadcastInDim S16384x8192 ![] bcast_S_S16384x8192 main_cst_16
  let main_v46 : IVec S16384x8192 1 := cmpf .olt main_v44 main_v45
  let main_c_17 : IVec S_ 1 := constantI S_ 1 1#1
  let main_v47 : IVec S_ 1 := (fun x v => Host.reduce IntOp.andi x v reducesTo_S16384x8192_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_v48 main_v49 main_v50

def fn_part1 {F : FTy → Type} [FloatOps F] (main_arg4 : FVec F S8192 .f32) (main_arg5 : FVec F S16384x8192 .f32) (main_arg6 : FVec F S8192 .f32) (main_arg7 : FVec F S16384x8192 .f32) (main_arg8 : FVec F S8192 .f32) (main_arg9 : FVec F S16384x8192 .f32) (main_arg10 : FVec F S8192 .f32) (main_v13 : IVec S_ 1) (main_v16 : IVec S16384x8192 1) : IVec S_ 1 :=
  let main_c_5 : IVec S_ 1 := constantI S_ 1 1#1
  let main_v17 : IVec S_ 1 := (fun x v => Host.reduce IntOp.andi x v reducesTo_S16384x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S16384x8192 .f32 := Host.absf main_arg5
  let main_cst_8 : FVec F S_ .f32 := constant S_ .f32 0x7F800000#32
  let main_v25 : FVec F S16384x8192 .f32 := broadcastInDim S16384x8192 ![] bcast_S_S16384x8192 main_cst_8
  let main_v26 : IVec S16384x8192 1 := cmpf .olt main_v24 main_v25
  let main_c_9 : IVec S_ 1 := constantI S_ 1 1#1
  let main_v27 : IVec S_ 1 := (fun x v => Host.reduce IntOp.andi x v reducesTo_S16384x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x8192 .f32) (main_arg1 : FVec F S1x8192 .f32) (main_arg2 : FVec F S1x8192 .f32) (main_arg3 : FVec F S16384x8192 .f32) (main_arg4 : FVec F S8192 .f32) (main_arg5 : FVec F S16384x8192 .f32) (main_arg6 : FVec F S8192 .f32) (main_arg7 : FVec F S16384x8192 .f32) (main_arg8 : FVec F S8192 .f32) (main_arg9 : FVec F S16384x8192 .f32) (main_arg10 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S16384x8192 .f32 := Host.absf main_arg3
  let main_cst_4 : FVec F S_ .f32 := constant S_ .f32 0x7F800000#32
  let main_v15 : FVec F S16384x8192 .f32 := broadcastInDim S16384x8192 ![] bcast_S_S16384x8192 main_cst_4
  let main_v16 : IVec S16384x8192 1 := cmpf .olt main_v14 main_v15
  fn_part1 (F := F) main_arg4 main_arg5 main_arg6 main_arg7 main_arg8 main_arg9 main_arg10 main_v13 main_v16
-- ==== Kernel.lean ====
abbrev S1x8192 : Shape := ⟨2, ![1, 8192]⟩
abbrev S16384x8192 : Shape := ⟨2, ![16384, 8192]⟩
abbrev S8192 : Shape := ⟨1, ![8192]⟩
abbrev S1x16384 : Shape := ⟨2, ![1, 16384]⟩
abbrev S1x2048 : Shape := ⟨2, ![1, 2048]⟩
abbrev S2048x256 : Shape := ⟨2, ![2048, 256]⟩
abbrev S1x256 : Shape := ⟨2, ![1, 256]⟩

abbrev nBuf : Space → Nat
  | .hbm => 17
  | .vmem => 26
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S16384x8192, .f32⟩
  | .hbm, ⟨4, _⟩ => ⟨S8192, .f32⟩
  | .hbm, ⟨5, _⟩ => ⟨S16384x8192, .f32⟩
  | .hbm, ⟨6, _⟩ => ⟨S8192, .f32⟩
  | .hbm, ⟨7, _⟩ => ⟨S16384x8192, .f32⟩
  | .hbm, ⟨8, _⟩ => ⟨S8192, .f32⟩
  | .hbm, ⟨9, _⟩ => ⟨S16384x8192, .f32⟩
  | .hbm, ⟨10, _⟩ => ⟨S8192, .f32⟩
  | .hbm, ⟨11, _⟩ => ⟨S1x16384, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S1x8192, .f32⟩
  | .local _ .vmem, ⟨0, _⟩ => ⟨S1x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  concatenates_S1x8192_S1x8192_S1x16384_d1 : Shape.Concatenates [S1x8192, S1x8192] S1x16384 1
  shapeCasts_S8192_S1x8192 : S8192.ShapeCasts S1x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  dot_S1x2048_S2048x256_S1x256_1_0_0_1_n_n_wf : DotDims.WF S1x2048 S2048x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x16384.size a
  hwx0_0 : ∀ i : grid0.Coords, EltTy.bits .f32 = 32 ∨ (Rect.block (s := S1x16384) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x8192.size a
  hwx0_1 : ∀ i : grid0.Coords, EltTy.bits .f32 = 32 ∨ (Rect.block (s := S16384x8192) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x8192.size a
  hwx0_2 : ∀ i : grid0.Coords, EltTy.bits .f32 = 32 ∨ (Rect.block (s := S16384x8192) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x8192.size a
  hwx0_3 : ∀ i : grid0.Coords, EltTy.bits .f32 = 32 ∨ (Rect.block (s := S16384x8192) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S16384x8192.size a
  hwx0_4 : ∀ i : grid0.Coords, EltTy.bits .f32 = 32 ∨ (Rect.block (s := S16384x8192) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x8192.size a
  hwx0_5 : ∀ i : grid0.Coords, EltTy.bits .f32 = 32 ∨ (Rect.block (s := S1x8192) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x8192.size a
  hwx0_7 : ∀ i : grid0.Coords, EltTy.bits .f32 = 32 ∨ (Rect.block (s := S1x8192) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x8192.size a
  hwx0_8 : ∀ i : grid0.Coords, EltTy.bits .f32 = 32 ∨ (Rect.block (s := S1x8192) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x8192.size a
  hwx0_9 : ∀ i : grid0.Coords, EltTy.bits .f32 = 32 ∨ (Rect.block (s := S1x8192) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x8192.size a
  hwx0_10 : ∀ i : grid0.Coords, EltTy.bits .f32 = 32 ∨ (Rect.block (s := S1x8192) S1x256.size (cc0_transform_10 i) (hinb0_10 i)).WholeWords (EltTy.packing .f32)

variable [Facts₀]

def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf

abbrev win0_0 : Pipeline.Window sig grid0 :=
  Pipeline.Window.ofSpec (Memref.whole main_v0) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S1x8192 : Shape := ⟨2, ![1, 8192]⟩
abbrev S16384x8192 : Shape := ⟨2, ![16384, 8192]⟩
abbrev S8192 : Shape := ⟨1, ![8192]⟩
abbrev S1x16384 : Shape := ⟨2, ![1, 16384]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S16384x8192, .f32⟩
  | .hbm, ⟨4, _⟩ => ⟨S8192, .f32⟩
  | .hbm, ⟨5, _⟩ => ⟨S16384x8192, .f32⟩
  | .hbm, ⟨6, _⟩ => ⟨S8192, .f32⟩
  | .hbm, ⟨7, _⟩ => ⟨S16384x8192, .f32⟩
  | .hbm, ⟨8, _⟩ => ⟨S8192, .f32⟩
  | .hbm, ⟨9, _⟩ => ⟨S16384x8192, .f32⟩
  | .hbm, ⟨10, _⟩ => ⟨S8192, .f32⟩
  | .hbm, ⟨11, _⟩ => ⟨S1x16384, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S1x8192, .f32⟩
  | .hbm, ⟨31, _⟩ => ⟨S1x8192, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S1x8192, .f32⟩
  | .hbm, ⟨40, _⟩ => ⟨S1x8192, .f32⟩
  | .hbm, ⟨41, _⟩ => ⟨S1x8192, .f32⟩
  | .hbm, ⟨42, _⟩ => ⟨S1x8192, .f32⟩
  | .hbm, ⟨43, _⟩ => ⟨S_, .f32⟩
  | .hbm, ⟨44, _⟩ => ⟨S1x8192, .f32⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S1x8192, .f32⟩
  | .hbm, ⟨50, _⟩ => ⟨S1x8192, .f32⟩
  | .hbm, ⟨51, _⟩ => ⟨S1x8192, .f32⟩
  | .hbm, ⟨52, _⟩ => ⟨S1x8192, .f32⟩
  | .hbm, ⟨53, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S1x8192_S1x8192_S1x16384_d1 : Shape.Concatenates [S1x8192, S1x8192] S1x16384 1
  bcast_S8192_S1x8192_1 : S8192.BroadcastsInDim S1x8192 (![1] : Fin 1 → Fin S1x8192.rank)
  bcast_S_S1x8192 : S_.BroadcastsInDim S1x8192 (![] : Fin 0 → Fin S1x8192.rank)
  dot_S1x16384_S16384x8192_S1x8192_1_0_0_1_n_n_wf : DotDims.WF S1x16384 S16384x8192 S1x8192 [1] [0] [0] [1] [] []

variable [Facts₀]

def dot_S1x16384_S16384x8192_S1x8192_1_0_0_1_n_n : DotDims S1x16384 S16384x8192 S1x8192 where
  lhsContracting := [1]
  rhsContracting := [0]
  lhsNonContracting := [0]
  rhsNonContracting := [1]
  lhsBatch := []
  rhsBatch := []
  wf := dot_S1x16384_S16384x8192_S1x8192_1_0_0_1_n_n_wf

class Facts : Prop extends Facts₀ where

variable [Facts]
-- ==== Proof.Pieces.lean ====
/-
  What one grid point of the kernel leaves behind, as pure functions of the blocks it loads.

  The grid is 32 column blocks (256 columns each) by 8 contraction steps (2048 rows of the weights each); a point's
  position inside its column block is k. Four accumulators of 256 entries, one per gate, are carried from point to
  point. At k = 0 each accumulator is reset to zeros and then receives the first partial product; at 0 < k < 7 it
  receives one more partial product on top of what the previous point left; at k = 7 it receives the last partial
  product, and the finished pre-activations, with their bias blocks and the old cell block, give the output block.

  Each lemma reads the stores a case performs back as ONE value: a store through the whole accumulator, performed
  last, leaves exactly its payload; a load through the whole buffer after such a store reads that payload; and a load
  of an input buffer reads the block it holds. The statements hold at any float family.
-/
import proofs.«140054_j66554813218861_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole-buffer access, as a constant function. -/
theorem hz : (![0, 0] : Fin 2 → Nat) = fun _ => 0 := funext fun a => by fin_cases a <;> rfl

variable (c : Dev nD) (i : grid0.Coords)
  (a2 : Memref sig .tc .vmem S1x2048 .f32) (h2 : a2.IsWhole)
  (a3 : Memref sig .tc .vmem S2048x256 .f32) (h3 : a3.IsWhole)
  (a4 : Memref sig .tc .vmem S2048x256 .f32) (h4 : a4.IsWhole)
  (a5 : Memref sig .tc .vmem S2048x256 .f32) (h5 : a5.IsWhole)
  (a6 : Memref sig .tc .vmem S2048x256 .f32) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x256 .f32) (h13 : a13.IsWhole)
  (a14 : Memref sig .tc .vmem S1x256 .f32) (h14 : a14.IsWhole)
  (a15 : Memref sig .tc .vmem S1x256 .f32) (h15 : a15.IsWhole)
  (a16 : Memref sig .tc .vmem S1x256 .f32) (h16 : a16.IsWhole)
  (x0 : Vec F S1x2048 .f32) (x1 x2 x3 x4 : Vec F S2048x256 .f32) (x5 x6 x7 x8 x9 : Vec F S1x256 .f32)
  (xs0 xs1 xs2 xs3 : Vec F S1x256 .f32)

/-- First step of a column block (k = 0): the forget gate's accumulator is stored as zeros, read back, and left at
    zeros plus this step's partial product. -/
theorem first0 (hc0 : cond0_0 i) (hc1 : ¬cond0_1 i) :
    sout0_A_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay8 x0 (k0_pay3 (F := F)) x1 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- First step of a column block (k = 0): the input gate's accumulator is stored as zeros, read back, and left at
    zeros plus this step's partial product. -/
theorem first1 (hc0 : cond0_0 i) (hc1 : ¬cond0_1 i) :
    sout0_A_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay9 x0 (k0_pay4 (F := F)) x2 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- First step of a column block (k = 0): the candidate gate's accumulator is stored as zeros, read back, and left at
    zeros plus this step's partial product. -/
theorem first2 (hc0 : cond0_0 i) (hc1 : ¬cond0_1 i) :
    sout0_A_2 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay10 x0 (k0_pay5 (F := F)) x3 := by
  unfold sout0_A_2
  rw [View.read_writes_eq_canon _ _ _ (scover0_A_2 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- First step of a column block (k = 0): the output gate's accumulator is stored as zeros, read back, and left at
    zeros plus this step's partial product. -/
theorem first3 (hc0 : cond0_0 i) (hc1 : ¬cond0_1 i) :
    sout0_A_3 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 = k0_pay1 (k0_pay7 x0) (k0_pay6 (F := F)) x4 := by
  unfold sout0_A_3
  rw [View.read_writes_eq_canon _ _ _ (scover0_A_3 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9)]
  unfold kernelRun0_A
  dsimp only
  sl_unfold_words
  rw [View.canon_cons_unit_zero (S := S1x256) hz, View.readCov_unit_zero (S := S1x256) _ hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- A middle step (0 < k < 7): the forget gate's accumulator, holding `xs0`, is left at `xs0` plus this step's
    partial product; nothing else of the other accumulators enters. -/
theorem middle0 (hc0 : ¬cond0_0 i) (hc1 : ¬cond0_1 i) :
    sout0_B_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay8 x0 xs0 x1 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- A middle step (0 < k < 7): the input gate's accumulator, holding `xs1`, is left at `xs1` plus this step's
    partial product; nothing else of the other accumulators enters. -/
theorem middle1 (hc0 : ¬cond0_0 i) (hc1 : ¬cond0_1 i) :
    sout0_B_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay9 x0 xs1 x2 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- A middle step (0 < k < 7): the candidate gate's accumulator, holding `xs2`, is left at `xs2` plus this step's
    partial product; nothing else of the other accumulators enters. -/
theorem middle2 (hc0 : ¬cond0_0 i) (hc1 : ¬cond0_1 i) :
    sout0_B_2 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay10 x0 xs2 x3 := by
  unfold sout0_B_2
  rw [View.read_writes_eq_canon _ _ _ (scover0_B_2 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- A middle step (0 < k < 7): the output gate's accumulator, holding `xs3`, is left at `xs3` plus this step's
    partial product; nothing else of the other accumulators enters. -/
theorem middle3 (hc0 : ¬cond0_0 i) (hc1 : ¬cond0_1 i) :
    sout0_B_3 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay1 (k0_pay7 x0) xs3 x4 := by
  unfold sout0_B_3
  rw [View.read_writes_eq_canon _ _ _ (scover0_B_3 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- The last step (k = 7) updates the forget gate's accumulator like a middle step. -/
theorem last0 (hc0 : ¬cond0_0 i) (hc1 : cond0_1 i) :
    sout0_C_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay8 x0 xs0 x1 := by
  unfold sout0_C_0
  rw [View.read_writes_eq_canon _ _ _ (scover0_C_0 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- The last step (k = 7) updates the input gate's accumulator like a middle step. -/
theorem last1 (hc0 : ¬cond0_0 i) (hc1 : cond0_1 i) :
    sout0_C_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay9 x0 xs1 x2 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- The last step (k = 7) updates the candidate gate's accumulator like a middle step. -/
theorem last2 (hc0 : ¬cond0_0 i) (hc1 : cond0_1 i) :
    sout0_C_2 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay10 x0 xs2 x3 := by
  unfold sout0_C_2
  rw [View.read_writes_eq_canon _ _ _ (scover0_C_2 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- The last step (k = 7) updates the output gate's accumulator like a middle step. -/
theorem last3 (hc0 : ¬cond0_0 i) (hc1 : cond0_1 i) :
    sout0_C_3 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3 = k0_pay1 (k0_pay7 x0) xs3 x4 := by
  unfold sout0_C_3
  rw [View.read_writes_eq_canon _ _ _ (scover0_C_3 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

/-- The last step then reads the four finished accumulators back, adds the bias blocks `x5 … x8`, and stores the cell
    update of them and the old cell block `x9` as the output block. -/
theorem lastOut (hc0 : ¬cond0_0 i) (hc1 : cond0_1 i) :
    out0_C_10 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3
      = k0_pay2 (k0_pay8 x0 xs0 x1) x5 (k0_pay9 x0 xs1 x2) x6 (k0_pay10 x0 xs2 x3) x7 (k0_pay1 (k0_pay7 x0) xs3 x4) x8 x9 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 xs0 xs1 xs2 xs3)]
  unfold kernelRun0_C
  dsimp only
  sl_unfold_words
  rw [View.canon_unit_zero hz]
  simp only [View.readCov_unit_zero (S := S1x256) _ hz, View.readAt_eq_ld, h2.read_unread, h3.read_unread, h4.read_unread, h5.read_unread, h6.read_unread, h7.read_unread, h8.read_unread, h9.read_unread, h10.read_unread, h11.read_unread, h13.read_unread, h14.read_unread, h15.read_unread, h16.read_unread,
    View.ld_unit_zero (S := S1x256) hz, View.ld_unit_zero (S := S1x2048) hz, View.ld_unit_zero (S := S2048x256) hz]

end Cert.KernelIdeal.Pieces

end
-- ==== Proof.AtPoint.lean ====
/-
  The grid points one by one: what point t leaves in the four accumulators and in the output block, over the blocks
  the point loads and what the point before left.

  At a point with t % 8 = 0 each accumulator is the first partial product on top of the zero block; at every other
  point it is one more partial product on top of what point t - 1 left in the same accumulator; and at a point with
  t % 8 = 7 the output block is the cell update of this point's four accumulators, the four bias blocks and the old
  cell block. These are the case-by-case contents of the run, read through the values of the cases' stores.
-/
import proofs.«140054_j66554813218861_1_alg».proof.Proof.Gen.KernelIdeal.Frame
import proofs.«140054_j66554813218861_1_alg».proof.Proof.Pieces

noncomputable section

namespace Cert.KernelIdeal.AtPoint

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- What the point before `t` left: the output block's buffer and the four accumulators. -/
abbrev prev (c : Dev nD) (t : Fin cfg0.N) :=
  outsAt0 m c (t.val - 1) (Nat.lt_of_le_of_lt (Nat.sub_le _ _) t.isLt)

/-- The forget gate's accumulator after the first point of a column block. -/
theorem forget_first (c : Dev nD) (t : Fin cfg0.N) (h0 : t.val % 8 = 0) (h1 : ¬t.val % 8 = 7) :
    (outsAt0 m c t.val t.isLt).2.1 = k0_pay8 (iblk m c 0 t) (k0_pay3 (F := F)) (iblk m c 1 t) := by
  rw [outsAt0_A m c t h0 h1]
  dsimp only
  exact Pieces.first0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))

/-- The forget gate's accumulator after a middle point. -/
theorem forget_middle (c : Dev nD) (t : Fin cfg0.N) (h0 : ¬t.val % 8 = 0) (h1 : ¬t.val % 8 = 7) :
    (outsAt0 m c t.val t.isLt).2.1 = k0_pay8 (iblk m c 0 t) (prev m c t).2.1 (iblk m c 1 t) := by
  rw [outsAt0_B m c t h0 h1]
  dsimp only
  exact Pieces.middle0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) (fun h => h1 ((hcond0_1 t).mp h))

/-- The forget gate's accumulator after the last point of a column block. -/
theorem forget_last (c : Dev nD) (t : Fin cfg0.N) (h0 : ¬t.val % 8 = 0) (h1 : t.val % 8 = 7) :
    (outsAt0 m c t.val t.isLt).2.1 = k0_pay8 (iblk m c 0 t) (prev m c t).2.1 (iblk m c 1 t) := by
  rw [outsAt0_C m c t h0 h1]
  dsimp only
  exact Pieces.last0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) ((hcond0_1 t).mpr h1)

/-- The input gate's accumulator after the first point of a column block. -/
theorem input_first (c : Dev nD) (t : Fin cfg0.N) (h0 : t.val % 8 = 0) (h1 : ¬t.val % 8 = 7) :
    (outsAt0 m c t.val t.isLt).2.2.1 = k0_pay9 (iblk m c 0 t) (k0_pay4 (F := F)) (iblk m c 2 t) := by
  rw [outsAt0_A m c t h0 h1]
  dsimp only
  exact Pieces.first1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))

/-- The input gate's accumulator after a middle point. -/
theorem input_middle (c : Dev nD) (t : Fin cfg0.N) (h0 : ¬t.val % 8 = 0) (h1 : ¬t.val % 8 = 7) :
    (outsAt0 m c t.val t.isLt).2.2.1 = k0_pay9 (iblk m c 0 t) (prev m c t).2.2.1 (iblk m c 2 t) := by
  rw [outsAt0_B m c t h0 h1]
  dsimp only
  exact Pieces.middle1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) (fun h => h1 ((hcond0_1 t).mp h))

/-- The input gate's accumulator after the last point of a column block. -/
theorem input_last (c : Dev nD) (t : Fin cfg0.N) (h0 : ¬t.val % 8 = 0) (h1 : t.val % 8 = 7) :
    (outsAt0 m c t.val t.isLt).2.2.1 = k0_pay9 (iblk m c 0 t) (prev m c t).2.2.1 (iblk m c 2 t) := by
  rw [outsAt0_C m c t h0 h1]
  dsimp only
  exact Pieces.last1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) ((hcond0_1 t).mpr h1)

/-- The candidate gate's accumulator after the first point of a column block. -/
theorem candidate_first (c : Dev nD) (t : Fin cfg0.N) (h0 : t.val % 8 = 0) (h1 : ¬t.val % 8 = 7) :
    (outsAt0 m c t.val t.isLt).2.2.2.1 = k0_pay10 (iblk m c 0 t) (k0_pay5 (F := F)) (iblk m c 3 t) := by
  rw [outsAt0_A m c t h0 h1]
  dsimp only
  exact Pieces.first2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))

/-- The candidate gate's accumulator after a middle point. -/
theorem candidate_middle (c : Dev nD) (t : Fin cfg0.N) (h0 : ¬t.val % 8 = 0) (h1 : ¬t.val % 8 = 7) :
    (outsAt0 m c t.val t.isLt).2.2.2.1 = k0_pay10 (iblk m c 0 t) (prev m c t).2.2.2.1 (iblk m c 3 t) := by
  rw [outsAt0_B m c t h0 h1]
  dsimp only
  exact Pieces.middle2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) (fun h => h1 ((hcond0_1 t).mp h))

/-- The candidate gate's accumulator after the last point of a column block. -/
theorem candidate_last (c : Dev nD) (t : Fin cfg0.N) (h0 : ¬t.val % 8 = 0) (h1 : t.val % 8 = 7) :
    (outsAt0 m c t.val t.isLt).2.2.2.1 = k0_pay10 (iblk m c 0 t) (prev m c t).2.2.2.1 (iblk m c 3 t) := by
  rw [outsAt0_C m c t h0 h1]
  dsimp only
  exact Pieces.last2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) ((hcond0_1 t).mpr h1)

/-- The output gate's accumulator after the first point of a column block. -/
theorem output_first (c : Dev nD) (t : Fin cfg0.N) (h0 : t.val % 8 = 0) (h1 : ¬t.val % 8 = 7) :
    (outsAt0 m c t.val t.isLt).2.2.2.2 = k0_pay1 (k0_pay7 (iblk m c 0 t)) (k0_pay6 (F := F)) (iblk m c 4 t) := by
  rw [outsAt0_A m c t h0 h1]
  dsimp only
  exact Pieces.first3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))

/-- The output gate's accumulator after a middle point. -/
theorem output_middle (c : Dev nD) (t : Fin cfg0.N) (h0 : ¬t.val % 8 = 0) (h1 : ¬t.val % 8 = 7) :
    (outsAt0 m c t.val t.isLt).2.2.2.2 = k0_pay1 (k0_pay7 (iblk m c 0 t)) (prev m c t).2.2.2.2 (iblk m c 4 t) := by
  rw [outsAt0_B m c t h0 h1]
  dsimp only
  exact Pieces.middle3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) (fun h => h1 ((hcond0_1 t).mp h))

/-- The output gate's accumulator after the last point of a column block. -/
theorem output_last (c : Dev nD) (t : Fin cfg0.N) (h0 : ¬t.val % 8 = 0) (h1 : t.val % 8 = 7) :
    (outsAt0 m c t.val t.isLt).2.2.2.2 = k0_pay1 (k0_pay7 (iblk m c 0 t)) (prev m c t).2.2.2.2 (iblk m c 4 t) := by
  rw [outsAt0_C m c t h0 h1]
  dsimp only
  exact Pieces.last3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) ((hcond0_1 t).mpr h1)

/-- The output block after the last point of a column block: the cell update of that point's accumulators, the bias
    blocks and the old cell block. -/
theorem out_last (c : Dev nD) (t : Fin cfg0.N) (h0 : ¬t.val % 8 = 0) (h1 : t.val % 8 = 7) :
    (outsAt0 m c t.val t.isLt).1
      = k0_pay2 (k0_pay8 (iblk m c 0 t) (prev m c t).2.1 (iblk m c 1 t)) (iblk m c 5 t)
          (k0_pay9 (iblk m c 0 t) (prev m c t).2.2.1 (iblk m c 2 t)) (iblk m c 6 t)
          (k0_pay10 (iblk m c 0 t) (prev m c t).2.2.2.1 (iblk m c 3 t)) (iblk m c 7 t)
          (k0_pay1 (k0_pay7 (iblk m c 0 t)) (prev m c t).2.2.2.2 (iblk m c 4 t)) (iblk m c 8 t) (iblk m c 9 t) := by
  rw [outsAt0_C m c t h0 h1]
  dsimp only
  exact Pieces.lastOut (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (prev m c t).2.1 (prev m c t).2.2.1 (prev m c t).2.2.2.1 (prev m c t).2.2.2.2 (fun h => h0 ((hcond0_0 t).mp h)) ((hcond0_1 t).mpr h1)

end Cert.KernelIdeal.AtPoint

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Cell.lean ====
/-
  One step of an LSTM cell at batch one, over the extended reals.

  The joined row X = [h, x] has 16384 entries; each of the four gates has a weight matrix W of 16384 rows and 8192
  columns and a bias vector b of 8192 entries. Column q of a gate's pre-activation is the contraction
  `∑ k, X k * W (k, q)` plus `b q`. The new hidden entry of column q is

      σ(o) * tanh (c * σ(f) + tanh (g) * σ(i)),      σ z = 1 / (1 + e^(-z)),

  with f, i, g, o the four pre-activations of that column and c the old cell entry.

  The contraction can be taken all at once, or accumulated over eight consecutive runs of 2048 positions starting from
  zero: `upTo` is the running sum after run k, `upTo_zero` / `upTo_succ` say how one run extends it, and
  `upTo_last` that after the eighth run it is the whole contraction. This needs only that addition on the extended
  reals is commutative and associative with neutral element zero: no entry has to be finite.
-/
import Idealize.ShloMosaic.PureOps.Ideal.Laws
import Idealize.ShloMosaic.Lib.ValueIdx
import Idealize.ShloMosaic.Lib.IdealHost
import proofs.«140054_j66554813218861_1_alg».proof.Proof.LibBlockSum

noncomputable section

namespace Cert.Lstm

open Idealize.ShloMosaic Idealize.ShloMosaic.ValueIdx
open scoped BigOperators

/-- The joined row [h, x]. -/
abbrev SCat : Shape := ⟨2, ![1, 16384]⟩
/-- A gate's weight matrix. -/
abbrev SMat : Shape := ⟨2, ![16384, 8192]⟩
/-- A row of 8192 entries: the cell state, the result. -/
abbrev SRow : Shape := ⟨2, ![1, 8192]⟩
/-- A bias vector. -/
abbrev SVec : Shape := ⟨1, ![8192]⟩

variable (X : SCat.Idx → EReal) (W : SMat.Idx → EReal)

/-- Column `q` of `X · W`: the contraction over all 16384 positions. -/
def dotCol (q : Fin 8192) : EReal := ∑ k : Fin 16384, X (ix2 0 k) * W (ix2 k q)

/-- The product at position `k` of the contraction for column `q`, as a function of the natural position (zero past the
    end, which no sum below reaches). -/
def term (q : Fin 8192) (k : ℕ) : EReal := if h : k < 16384 then X (ix2 0 ⟨k, h⟩) * W (ix2 ⟨k, h⟩ q) else 0

/-- The contribution of run `s`: positions `2048 * s` to `2048 * s + 2047`. -/
def run (q : Fin 8192) (s : ℕ) : EReal := ∑ x : Fin 2048, term X W q (2048 * s + x.val)

/-- The running sum after runs `0 … k`. -/
def upTo (q : Fin 8192) (k : ℕ) : EReal := ∑ s ∈ Finset.range (k + 1), run X W q s

theorem upTo_zero (q : Fin 8192) : upTo X W q 0 = 0 + run X W q 0 := by
  simp [upTo]

theorem upTo_succ (q : Fin 8192) (k : ℕ) : upTo X W q (k + 1) = upTo X W q k + run X W q (k + 1) := by
  unfold upTo
  rw [Finset.sum_range_succ]

/-- Eight runs of 2048 are the whole contraction. -/
theorem upTo_last (q : Fin 8192) : upTo X W q 7 = dotCol X W q := by
  unfold upTo dotCol run term
  exact (Cert.LibBlockSum.sum_fin_blocks 8 2048 rfl (fun k : Fin 16384 => X (ix2 0 k) * W (ix2 k q))).symm

/-- The cell update of one column from its four pre-activations and the old cell entry. -/
def cell (f i g o c : EReal) : EReal :=
  Ideal.logistic o * Ideal.tanh (c * Ideal.logistic f + Ideal.tanh g * Ideal.logistic i)

/-- The new hidden row. -/
def step (Wf Wi Wg Wo : SMat.Idx → EReal) (bf bi bg bo : SVec.Idx → EReal) (C : SRow.Idx → EReal) :
    SRow.Idx → EReal := fun j =>
  cell (dotCol X Wf (j 1) + bf (ix1 (j 1))) (dotCol X Wi (j 1) + bi (ix1 (j 1)))
    (dotCol X Wg (j 1) + bg (ix1 (j 1))) (dotCol X Wo (j 1) + bo (ix1 (j 1))) (C j)

/-- The logistic function spelled with the word of 1.0 for both ones, a negation, an exponential and a quotient. -/
theorem logistic_spelled (z : EReal) :
    Ideal.div (Ideal.ofBits .f32 0x3F800000#32) (Ideal.ofBits .f32 0x3F800000#32 + Ideal.exp (-z)) = Ideal.logistic z := by
  rw [Ideal.ofBits_one_f32]; rfl

end Cert.Lstm

end
-- ==== Proof.BlockStep.lean ====
/-
  One grid step's arithmetic, entry by entry, over the extended reals.

  A step multiplies the current 2048 entries of the joined row with a 2048 x 256 block of a gate's weights and adds the
  product to that gate's accumulator of 256 entries. Entry q of the product is the sum over the 2048 positions of row
  entry times weight entry: the narrowing of both operands to a shorter float format is the identity on the extended
  reals, and a product into a zero accumulator is the plain sum. The reset stores the zero word, which is the number
  zero. After the last step the four accumulators plus their bias entries are the gates' pre-activations, and the
  output entry is the cell update of them and the old cell entry.
-/
import proofs.«140054_j66554813218861_1_alg».proof.Proof.Gen.KernelIdeal.Skeleton
import proofs.«140054_j66554813218861_1_alg».proof.Proof.LibDense
import proofs.«140054_j66554813218861_1_alg».proof.Proof.Cell
import Idealize.ShloMosaic.Lib.Pipeline.Value

noncomputable section

namespace Cert.KernelIdeal.BlockStep

open Cert.KernelIdeal Cert.KernelIdeal.Gen Idealize.ShloMosaic Idealize.ShloMosaic.ValueIdx
open scoped BigOperators

/-- The printed contraction record is the plain row-by-column one: rows x 2048 times 2048 x columns. -/
theorem dims_eq : dot_S1x2048_S2048x256_S1x256_1_0_0_1_n_n = DotDims.plain 1 2048 256 := rfl

/-- Entry `j` of a block product into zeros: the sum over the 2048 positions. -/
theorem product_apply {φ₁ φ₂ : FTy} (x : FVec Ideal S1x2048 φ₁) (w : FVec Ideal S2048x256 φ₂) (j : S1x256.Idx) :
    matmul dot_S1x2048_S2048x256_S1x256_1_0_0_1_n_n none x w (constant S1x256 .f32 0x00000000#32) j
      = ∑ k : Fin 2048, x (ix2 (j 0) k) * w (ix2 k (j 1)) := by
  rw [dims_eq]
  show FloatOps.matmul (DotDims.plain 1 2048 256) none x w (constant _ .f32 0x00000000#32) j = _
  rw [Ideal.matmul_constant_zero_apply, ← Equiv.sum_comp (Cert.Lib.Dense.ce 1 2048 256).symm]
  exact Finset.sum_congr rfl fun k _ => by rw [Cert.Lib.Dense.plain_lhsIdx, Cert.Lib.Dense.plain_rhsIdx]

/-- The forget gate's accumulator after a step: what it held plus the step's product. -/
theorem forget_apply (x : Vec Ideal S1x2048 .f32) (acc : Vec Ideal S1x256 .f32) (w : Vec Ideal S2048x256 .f32) (j : S1x256.Idx) :
    k0_pay8 x acc w j = acc j + ∑ k : Fin 2048, x (ix2 (j 0) k) * w (ix2 k (j 1)) := by
  unfold k0_pay8 k0_pay7
  dsimp only
  rw [shapeCast_self]
  refine (congrArg (acc j + ·) (product_apply _ _ j)).trans ?_
  rw [shapeCast_self]
  rfl

/-- The input gate's accumulator after a step. -/
theorem input_apply (x : Vec Ideal S1x2048 .f32) (acc : Vec Ideal S1x256 .f32) (w : Vec Ideal S2048x256 .f32) (j : S1x256.Idx) :
    k0_pay9 x acc w j = acc j + ∑ k : Fin 2048, x (ix2 (j 0) k) * w (ix2 k (j 1)) := by
  unfold k0_pay9 k0_pay7
  dsimp only
  rw [shapeCast_self]
  refine (congrArg (acc j + ·) (product_apply _ _ j)).trans ?_
  rw [shapeCast_self]
  rfl

/-- The candidate's accumulator after a step. -/
theorem candidate_apply (x : Vec Ideal S1x2048 .f32) (acc : Vec Ideal S1x256 .f32) (w : Vec Ideal S2048x256 .f32) (j : S1x256.Idx) :
    k0_pay10 x acc w j = acc j + ∑ k : Fin 2048, x (ix2 (j 0) k) * w (ix2 k (j 1)) := by
  unfold k0_pay10 k0_pay7
  dsimp only
  rw [shapeCast_self]
  refine (congrArg (acc j + ·) (product_apply _ _ j)).trans ?_
  rw [shapeCast_self]
  rfl

/-- The output gate's accumulator after a step (its row operand arrives already narrowed). -/
theorem output_apply (x : Vec Ideal S1x2048 .f32) (acc : Vec Ideal S1x256 .f32) (w : Vec Ideal S2048x256 .f32) (j : S1x256.Idx) :
    k0_pay1 (k0_pay7 x) acc w j = acc j + ∑ k : Fin 2048, x (ix2 (j 0) k) * w (ix2 k (j 1)) := by
  unfold k0_pay1 k0_pay7
  dsimp only
  rw [shapeCast_self]
  refine (congrArg (acc j + ·) (product_apply _ _ j)).trans ?_
  rw [shapeCast_self]
  rfl

/-- The four reset blocks hold the number zero everywhere. -/
theorem zeroF_apply (j : S1x256.Idx) : k0_pay3 (F := Ideal) j = 0 := by
  unfold k0_pay3; rw [shapeCast_self]; exact Ideal.ofBits_zero_f32
theorem zeroI_apply (j : S1x256.Idx) : k0_pay4 (F := Ideal) j = 0 := by
  unfold k0_pay4; rw [shapeCast_self]; exact Ideal.ofBits_zero_f32
theorem zeroG_apply (j : S1x256.Idx) : k0_pay5 (F := Ideal) j = 0 := by
  unfold k0_pay5; rw [shapeCast_self]; exact Ideal.ofBits_zero_f32
theorem zeroO_apply (j : S1x256.Idx) : k0_pay6 (F := Ideal) j = 0 := by
  unfold k0_pay6; rw [shapeCast_self]; exact Ideal.ofBits_zero_f32

/-- The output block's entry: the cell update of the four finished accumulators plus their bias entries, and the old
    cell entry. -/
theorem finish_apply (af bf ai bi ag bg ao bo cc : Vec Ideal S1x256 .f32) (j : S1x256.Idx) :
    k0_pay2 af bf ai bi ag bg ao bo cc j
      = Cert.Lstm.cell (af j + bf j) (ai j + bi j) (ag j + bg j) (ao j + bo j) (cc j) := by
  unfold k0_pay2
  simp only [shapeCast_self]
  rfl

end Cert.KernelIdeal.BlockStep

end
-- ==== Proof.Blocks.lean ====
/-
  Which entries of the arrays a grid point's blocks hold.

  Point t of the 32 x 8 grid, counted row-major, is column block n = t / 8 at contraction step k = t % 8. The joined
  row's window moves with k only (block index (0, k), blocks of 1 x 2048); each weight window moves with both (block
  index (k, n), blocks of 2048 x 256); the bias windows, the old cell state's and the output's move with n only (block
  index (0, n), blocks of 1 x 256). These index maps are decided once over the 256 points; an entry of a block is then
  the array's entry at block index times block size plus the position inside the block, coordinate by coordinate.
-/
import proofs.«140054_j66554813218861_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The joined row's window is at block (0, k). -/
theorem idx0 : ∀ t : Fin cfg0.N, win0_0.index t 0 = 0 ∧ win0_0.index t 1 = t.val % 8 :=
  (by decide +kernel : ∀ t : Fin grid0.N, _)

/-- Weight window 1 is at block (k, n). -/
theorem idx1 : ∀ t : Fin cfg0.N, win0_1.index t 0 = t.val % 8 ∧ win0_1.index t 1 = t.val / 8 :=
  (by decide +kernel : ∀ t : Fin grid0.N, _)

/-- Weight window 2 is at block (k, n). -/
theorem idx2 : ∀ t : Fin cfg0.N, win0_2.index t 0 = t.val % 8 ∧ win0_2.index t 1 = t.val / 8 :=
  (by decide +kernel : ∀ t : Fin grid0.N, _)

/-- Weight window 3 is at block (k, n). -/
theorem idx3 : ∀ t : Fin cfg0.N, win0_3.index t 0 = t.val % 8 ∧ win0_3.index t 1 = t.val / 8 :=
  (by decide +kernel : ∀ t : Fin grid0.N, _)

/-- Weight window 4 is at block (k, n). -/
theorem idx4 : ∀ t : Fin cfg0.N, win0_4.index t 0 = t.val % 8 ∧ win0_4.index t 1 = t.val / 8 :=
  (by decide +kernel : ∀ t : Fin grid0.N, _)

/-- Window 5 is at block (0, n). -/
theorem idx5 : ∀ t : Fin cfg0.N, win0_5.index t 0 = 0 ∧ win0_5.index t 1 = t.val / 8 :=
  (by decide +kernel : ∀ t : Fin grid0.N, _)

/-- Window 6 is at block (0, n). -/
theorem idx6 : ∀ t : Fin cfg0.N, win0_6.index t 0 = 0 ∧ win0_6.index t 1 = t.val / 8 :=
  (by decide +kernel : ∀ t : Fin grid0.N, _)

/-- Window 7 is at block (0, n). -/
theorem idx7 : ∀ t : Fin cfg0.N, win0_7.index t 0 = 0 ∧ win0_7.index t 1 = t.val / 8 :=
  (by decide +kernel : ∀ t : Fin grid0.N, _)

/-- Window 8 is at block (0, n). -/
theorem idx8 : ∀ t : Fin cfg0.N, win0_8.index t 0 = 0 ∧ win0_8.index t 1 = t.val / 8 :=
  (by decide +kernel : ∀ t : Fin grid0.N, _)

/-- Window 9 is at block (0, n). -/
theorem idx9 : ∀ t : Fin cfg0.N, win0_9.index t 0 = 0 ∧ win0_9.index t 1 = t.val / 8 :=
  (by decide +kernel : ∀ t : Fin grid0.N, _)

/-- The output's window is at block (0, n). -/
theorem idx10 : ∀ t : Fin cfg0.N, win0_10.index t 0 = 0 ∧ win0_10.index t 1 = t.val / 8 :=
  (by decide +kernel : ∀ t : Fin grid0.N, _)

/-- The joined row's block at a point: entries `2048 k` to `2048 k + 2047`, with k the point's contraction step. -/
theorem rowBlock (c : Dev nD) (t : Fin cfg0.N) (y : S1x2048.Idx) (i : S1x16384.Idx) (h0 : (i 0).val = 0)
    (h1 : (i 1).val = 2048 * (t.val % 8) + (y 1).val) :
    (iblk m c 0 t : Vec F S1x2048 .f32) y = V m c main_v0 i := by
  unfold iblk
  rw [View.read_apply]
  show V m c main_v0 (((cfg0.win 0).blk t).view.emb y) = V m c main_v0 i
  refine congrArg _ (funext fun a => Fin.ext ?_)
  match a with
  | ⟨0, _⟩ =>
    show win0_0.index t 0 * 1 + 1 * (y 0).val = (i 0).val
    rw [(idx0 t).1, h0]; have hy : (y 0).val < 1 := (y 0).isLt; omega
  | ⟨1, _⟩ =>
    show win0_0.index t 1 * 2048 + 1 * (y 1).val = (i 1).val
    rw [(idx0 t).2, h1]; omega

/-- The forget gate's weight block at a point: rows `2048 k …`, columns `256 n …`, with n the point's column block. -/
theorem forgetBlock (c : Dev nD) (t : Fin cfg0.N) (y : S2048x256.Idx) (i : S16384x8192.Idx)
    (h0 : (i 0).val = 2048 * (t.val % 8) + (y 0).val) (h1 : (i 1).val = 256 * (t.val / 8) + (y 1).val) :
    (iblk m c 1 t : Vec F S2048x256 .f32) y = V m c main_arg3 i := by
  unfold iblk
  rw [View.read_apply]
  show V m c main_arg3 (((cfg0.win 1).blk t).view.emb y) = V m c main_arg3 i
  refine congrArg _ (funext fun a => Fin.ext ?_)
  match a with
  | ⟨0, _⟩ =>
    show win0_1.index t 0 * 2048 + 1 * (y 0).val = (i 0).val
    rw [(idx1 t).1, h0]; omega
  | ⟨1, _⟩ =>
    show win0_1.index t 1 * 256 + 1 * (y 1).val = (i 1).val
    rw [(idx1 t).2, h1]; omega

/-- The input gate's weight block at a point. -/
theorem inputBlock (c : Dev nD) (t : Fin cfg0.N) (y : S2048x256.Idx) (i : S16384x8192.Idx)
    (h0 : (i 0).val = 2048 * (t.val % 8) + (y 0).val) (h1 : (i 1).val = 256 * (t.val / 8) + (y 1).val) :
    (iblk m c 2 t : Vec F S2048x256 .f32) y = V m c main_arg5 i := by
  unfold iblk
  rw [View.read_apply]
  show V m c main_arg5 (((cfg0.win 2).blk t).view.emb y) = V m c main_arg5 i
  refine congrArg _ (funext fun a => Fin.ext ?_)
  match a with
  | ⟨0, _⟩ =>
    show win0_2.index t 0 * 2048 + 1 * (y 0).val = (i 0).val
    rw [(idx2 t).1, h0]; omega
  | ⟨1, _⟩ =>
    show win0_2.index t 1 * 256 + 1 * (y 1).val = (i 1).val
    rw [(idx2 t).2, h1]; omega

/-- The candidate's weight block at a point. -/
theorem candidateBlock (c : Dev nD) (t : Fin cfg0.N) (y : S2048x256.Idx) (i : S16384x8192.Idx)
    (h0 : (i 0).val = 2048 * (t.val % 8) + (y 0).val) (h1 : (i 1).val = 256 * (t.val / 8) + (y 1).val) :
    (iblk m c 3 t : Vec F S2048x256 .f32) y = V m c main_arg7 i := by
  unfold iblk
  rw [View.read_apply]
  show V m c main_arg7 (((cfg0.win 3).blk t).view.emb y) = V m c main_arg7 i
  refine congrArg _ (funext fun a => Fin.ext ?_)
  match a with
  | ⟨0, _⟩ =>
    show win0_3.index t 0 * 2048 + 1 * (y 0).val = (i 0).val
    rw [(idx3 t).1, h0]; omega
  | ⟨1, _⟩ =>
    show win0_3.index t 1 * 256 + 1 * (y 1).val = (i 1).val
    rw [(idx3 t).2, h1]; omega

/-- The output gate's weight block at a point. -/
theorem outputBlock (c : Dev nD) (t : Fin cfg0.N) (y : S2048x256.Idx) (i : S16384x8192.Idx)
    (h0 : (i 0).val = 2048 * (t.val % 8) + (y 0).val) (h1 : (i 1).val = 256 * (t.val / 8) + (y 1).val) :
    (iblk m c 4 t : Vec F S2048x256 .f32) y = V m c main_arg9 i := by
  unfold iblk
  rw [View.read_apply]
  show V m c main_arg9 (((cfg0.win 4).blk t).view.emb y) = V m c main_arg9 i
  refine congrArg _ (funext fun a => Fin.ext ?_)
  match a with
  | ⟨0, _⟩ =>
    show win0_4.index t 0 * 2048 + 1 * (y 0).val = (i 0).val
    rw [(idx4 t).1, h0]; omega
  | ⟨1, _⟩ =>
    show win0_4.index t 1 * 256 + 1 * (y 1).val = (i 1).val
    rw [(idx4 t).2, h1]; omega

/-- The forget gate's bias block at a point: columns `256 n …` of the bias row. -/
theorem forgetBias (c : Dev nD) (t : Fin cfg0.N) (y : S1x256.Idx) (i : S1x8192.Idx) (h0 : (i 0).val = 0)
    (h1 : (i 1).val = 256 * (t.val / 8) + (y 1).val) :
    (iblk m c 5 t : Vec F S1x256 .f32) y = V m c main_v1 i := by
  unfold iblk
  rw [View.read_apply]
  show V m c main_v1 (((cfg0.win 5).blk t).view.emb y) = V m c main_v1 i
  refine congrArg _ (funext fun a => Fin.ext ?_)
  match a with
  | ⟨0, _⟩ =>
    show win0_5.index t 0 * 1 + 1 * (y 0).val = (i 0).val
    rw [(idx5 t).1, h0]; have hy : (y 0).val < 1 := (y 0).isLt; omega
  | ⟨1, _⟩ =>
    show win0_5.index t 1 * 256 + 1 * (y 1).val = (i 1).val
    rw [(idx5 t).2, h1]; omega

/-- The input gate's bias block at a point. -/
theorem inputBias (c : Dev nD) (t : Fin cfg0.N) (y : S1x256.Idx) (i : S1x8192.Idx) (h0 : (i 0).val = 0)
    (h1 : (i 1).val = 256 * (t.val / 8) + (y 1).val) :
    (iblk m c 6 t : Vec F S1x256 .f32) y = V m c main_v2 i := by
  unfold iblk
  rw [View.read_apply]
  show V m c main_v2 (((cfg0.win 6).blk t).view.emb y) = V m c main_v2 i
  refine congrArg _ (funext fun a => Fin.ext ?_)
  match a with
  | ⟨0, _⟩ =>
    show win0_6.index t 0 * 1 + 1 * (y 0).val = (i 0).val
    rw [(idx6 t).1, h0]; have hy : (y 0).val < 1 := (y 0).isLt; omega
  | ⟨1, _⟩ =>
    show win0_6.index t 1 * 256 + 1 * (y 1).val = (i 1).val
    rw [(idx6 t).2, h1]; omega

/-- The candidate's bias block at a point. -/
theorem candidateBias (c : Dev nD) (t : Fin cfg0.N) (y : S1x256.Idx) (i : S1x8192.Idx) (h0 : (i 0).val = 0)
    (h1 : (i 1).val = 256 * (t.val / 8) + (y 1).val) :
    (iblk m c 7 t : Vec F S1x256 .f32) y = V m c main_v3 i := by
  unfold iblk
  rw [View.read_apply]
  show V m c main_v3 (((cfg0.win 7).blk t).view.emb y) = V m c main_v3 i
  refine congrArg _ (funext fun a => Fin.ext ?_)
  match a with
  | ⟨0, _⟩ =>
    show win0_7.index t 0 * 1 + 1 * (y 0).val = (i 0).val
    rw [(idx7 t).1, h0]; have hy : (y 0).val < 1 := (y 0).isLt; omega
  | ⟨1, _⟩ =>
    show win0_7.index t 1 * 256 + 1 * (y 1).val = (i 1).val
    rw [(idx7 t).2, h1]; omega

/-- The output gate's bias block at a point. -/
theorem outputBias (c : Dev nD) (t : Fin cfg0.N) (y : S1x256.Idx) (i : S1x8192.Idx) (h0 : (i 0).val = 0)
    (h1 : (i 1).val = 256 * (t.val / 8) + (y 1).val) :
    (iblk m c 8 t : Vec F S1x256 .f32) y = V m c main_v4 i := by
  unfold iblk
  rw [View.read_apply]
  show V m c main_v4 (((cfg0.win 8).blk t).view.emb y) = V m c main_v4 i
  refine congrArg _ (funext fun a => Fin.ext ?_)
  match a with
  | ⟨0, _⟩ =>
    show win0_8.index t 0 * 1 + 1 * (y 0).val = (i 0).val
    rw [(idx8 t).1, h0]; have hy : (y 0).val < 1 := (y 0).isLt; omega
  | ⟨1, _⟩ =>
    show win0_8.index t 1 * 256 + 1 * (y 1).val = (i 1).val
    rw [(idx8 t).2, h1]; omega

/-- The old cell state's block at a point. -/
theorem cellBlock (c : Dev nD) (t : Fin cfg0.N) (y : S1x256.Idx) (i : S1x8192.Idx) (h0 : (i 0).val = 0)
    (h1 : (i 1).val = 256 * (t.val / 8) + (y 1).val) :
    (iblk m c 9 t : Vec F S1x256 .f32) y = V m c main_arg2 i := by
  unfold iblk
  rw [View.read_apply]
  show V m c main_arg2 (((cfg0.win 9).blk t).view.emb y) = V m c main_arg2 i
  refine congrArg _ (funext fun a => Fin.ext ?_)
  match a with
  | ⟨0, _⟩ =>
    show win0_9.index t 0 * 1 + 1 * (y 0).val = (i 0).val
    rw [(idx9 t).1, h0]; have hy : (y 0).val < 1 := (y 0).isLt; omega
  | ⟨1, _⟩ =>
    show win0_9.index t 1 * 256 + 1 * (y 1).val = (i 1).val
    rw [(idx9 t).2, h1]; omega

end Cert.KernelIdeal.Blocks

end
-- ==== Proof.Running.lean ====
/-
  A running sum that is reset every eight points.

  Point n of the grid (n < 256) belongs to column block n / 8 and is contraction step n % 8 of it. Suppose a sequence of
  rows of 256 extended reals starts, at every point with n % 8 = 0, from zero plus the first run of the contraction for
  its column, and at every other point adds that point's run to what the point before left. Then after point n it holds
  the running sum of the runs 0 … n % 8 for the columns of block n / 8, and after a block's last point the whole
  contraction. The argument is an induction on the point; the columns do not change inside a block because n / 8 does
  not.
-/
import proofs.«140054_j66554813218861_1_alg».proof.Proof.Cell

noncomputable section

namespace Cert.Lstm

open Idealize.ShloMosaic Idealize.ShloMosaic.ValueIdx
open scoped BigOperators

/-- Column `q` of column block `n / 8`, as a column of the whole row (reduced modulo 8192 so that it is one for every
    natural `n`; for a point of the grid nothing is cut off: `col_val`). -/
def col (n : ℕ) (q : Fin 256) : Fin 8192 := ⟨(256 * (n / 8) + q.val) % 8192, Nat.mod_lt _ (by norm_num)⟩

theorem col_val (n : ℕ) (hn : n < 256) (q : Fin 256) : (col n q).val = 256 * (n / 8) + q.val := by
  have := q.isLt
  show (256 * (n / 8) + q.val) % 8192 = _
  exact Nat.mod_eq_of_lt (by omega)

/-- Inside a column block the columns stay the same. -/
theorem col_succ (n : ℕ) (h : (n + 1) % 8 ≠ 0) (q : Fin 256) : col (n + 1) q = col n q := by
  have e : (n + 1) / 8 = n / 8 := by omega
  apply Fin.ext
  show (256 * ((n + 1) / 8) + q.val) % 8192 = (256 * (n / 8) + q.val) % 8192
  rw [e]

variable (X : SCat.Idx → EReal) (W : SMat.Idx → EReal)

/-- The sum a step forms from its blocks is a run of the whole contraction: the row block `x` holds the row's entries
    `2048 k …`, the weight block `w` rows `2048 k …` and columns `256 n …` of the weights. -/
theorem sum_eq_run (x : (⟨2, ![1, 2048]⟩ : Shape).Idx → EReal) (w : (⟨2, ![2048, 256]⟩ : Shape).Idx → EReal) (k : ℕ) (hk : k < 8)
    (q : Fin 256) (Q : Fin 8192)
    (hx : ∀ (y : (⟨2, ![1, 2048]⟩ : Shape).Idx) (i : SCat.Idx), (i 0).val = 0 → (i 1).val = 2048 * k + (y 1).val → x y = X i)
    (hw : ∀ (y : (⟨2, ![2048, 256]⟩ : Shape).Idx) (i : SMat.Idx), (i 0).val = 2048 * k + (y 0).val → (i 1).val = Q.val →
      (y 1).val = q.val → w y = W i) :
    ∑ kk : Fin 2048, x (ix2 0 kk) * w (ix2 kk q) = run X W Q k := by
  unfold run term
  refine Finset.sum_congr rfl fun kk _ => ?_
  have hb : 2048 * k + kk.val < 16384 := by have := kk.isLt; omega
  rw [dif_pos hb, hx (ix2 0 kk) (ix2 0 ⟨_, hb⟩) rfl rfl, hw (ix2 kk q) (ix2 ⟨_, hb⟩ Q) rfl rfl rfl]

/-- The induction: reset to zero plus the first run at the points with `n % 8 = 0`, one more run at every other
    point, gives the running sum. -/
theorem eq_upTo (s : (n : ℕ) → n < 256 → Fin 256 → EReal)
    (hfirst : ∀ n (h : n < 256) q, n % 8 = 0 → s n h q = 0 + run X W (col n q) 0)
    (hnext : ∀ n (h : n + 1 < 256) q, (n + 1) % 8 ≠ 0 →
      s (n + 1) h q = s n (Nat.lt_of_succ_lt h) q + run X W (col (n + 1) q) ((n + 1) % 8)) :
    ∀ n (h : n < 256) q, s n h q = upTo X W (col n q) (n % 8) := by
  intro n
  induction n with
  | zero => intro h q; rw [hfirst 0 h q rfl]; exact (upTo_zero X W _).symm
  | succ n ih =>
    intro h q
    by_cases h0 : (n + 1) % 8 = 0
    · rw [hfirst (n + 1) h q h0, h0]; exact (upTo_zero X W _).symm
    · have e : (n + 1) % 8 = n % 8 + 1 := by omega
      rw [hnext n h q h0, ih (Nat.lt_of_succ_lt h) q, col_succ n h0 q, e]
      exact (upTo_succ X W _ _).symm

/-- After a block's last point the running sum is the whole contraction. -/
theorem upTo_at_last (n : ℕ) (h7 : n % 8 = 7) (q : Fin 256) : upTo X W (col n q) (n % 8) = dotCol X W (col n q) := by
  rw [h7]; exact upTo_last X W _

end Cert.Lstm

end
-- ==== Proof.Accum.lean ====
/-
  The four accumulators are running sums of the gates' contractions, and the output block is the cell update.

  For one gate: at the first point of a column block its accumulator is zero plus that point's product, at every other
  point what the point before left plus that point's product; a point's product at column q of the block is the run
  `t % 8` of the whole contraction for column `256 (t / 8) + q`, because the row block and the weight block hold
  exactly those entries of the joined row and the weights. So after point t the accumulator is the running sum of the
  runs `0 … t % 8` (the induction is `Cert.Lstm.eq_upTo`), and after the last point of a column block the whole
  contraction. The output block written there adds the bias entries and applies the cell update.
-/
import proofs.«140054_j66554813218861_1_alg».proof.Proof.AtPoint
import proofs.«140054_j66554813218861_1_alg».proof.Proof.BlockStep
import proofs.«140054_j66554813218861_1_alg».proof.Proof.Blocks
import proofs.«140054_j66554813218861_1_alg».proof.Proof.Running

noncomputable section

namespace Cert.KernelIdeal.Accum

open Cert.KernelIdeal Cert.KernelIdeal.Gen Idealize.ShloMosaic Idealize.ShloMosaic.TcCoe Idealize.SL.Sem
open Idealize.ShloMosaic.ValueIdx Cert.Lstm
open scoped BigOperators

variable (m : (ℓ : Loc nD τ sig) → Buf (Elt Ideal) ℓ)

/-- The joined row as the region finds it. -/
abbrev rowX (c : Dev nD) : Vec Ideal S1x16384 .f32 := V m c main_v0
/-- The joined row's block at a point. -/
abbrev xb (c : Dev nD) (t : Fin cfg0.N) : Vec Ideal S1x2048 .f32 := iblk m c 0 t

theorem lt_N {n : ℕ} (h : n < 256) : n < cfg0.N := lt_of_lt_of_eq h N_0.symm
theorem lt_256 (t : Fin cfg0.N) : t.val < 256 := lt_of_lt_of_eq t.isLt N_0

/-- The only row of a one-row block. -/
theorem row0 (j : S1x256.Idx) : j = ix2 (n0 := 1) (n1 := 256) 0 (j 1) := by
  funext a
  match a with
  | ⟨0, _⟩ => exact Fin.ext (by have h : (j 0).val < 1 := (j 0).isLt; show (j 0).val = 0; omega)
  | ⟨1, _⟩ => rfl

/-- ONE GATE. `s` is the gate's accumulator point by point, `wb` its weight block point by point, `W` its weights. -/
theorem gate (c : Dev nD) (W : Vec Ideal S16384x8192 .f32) (s : (n : ℕ) → n < cfg0.N → Vec Ideal S1x256 .f32)
    (wb : Fin cfg0.N → Vec Ideal S2048x256 .f32)
    (hwb : ∀ (t : Fin cfg0.N) (y : S2048x256.Idx) (i : S16384x8192.Idx), (i 0).val = 2048 * (t.val % 8) + (y 0).val →
      (i 1).val = 256 * (t.val / 8) + (y 1).val → wb t y = W i)
    (hfirst : ∀ t : Fin cfg0.N, t.val % 8 = 0 → ∀ q : Fin 256,
      s t.val t.isLt (ix2 0 q) = 0 + ∑ kk : Fin 2048, xb m c t (ix2 0 kk) * wb t (ix2 kk q))
    (hnext : ∀ (n : ℕ) (h : n + 1 < cfg0.N), (n + 1) % 8 ≠ 0 → ∀ q : Fin 256,
      s (n + 1) h (ix2 0 q) = s n (Nat.lt_of_succ_lt h) (ix2 0 q)
        + ∑ kk : Fin 2048, xb m c ⟨n + 1, h⟩ (ix2 0 kk) * wb ⟨n + 1, h⟩ (ix2 kk q))
    (t : Fin cfg0.N) (j : S1x256.Idx) :
    s t.val t.isLt j = upTo (rowX m c) W (col t.val (j 1)) (t.val % 8) := by
  have hrun : ∀ (t : Fin cfg0.N) (q : Fin 256),
      ∑ kk : Fin 2048, xb m c t (ix2 0 kk) * wb t (ix2 kk q) = run (rowX m c) W (col t.val q) (t.val % 8) := fun t q =>
    sum_eq_run (rowX m c) W (xb m c t) (wb t) (t.val % 8) (Nat.mod_lt _ (by norm_num)) q (col t.val q)
      (fun y i h0 h1 => Blocks.rowBlock m c t y i h0 h1)
      (fun y i h0 h1 hy => hwb t y i h0 (by rw [h1, col_val t.val (lt_256 t) q, hy]))
  have key := eq_upTo (rowX m c) W (fun n h q => s n (lt_N h) (ix2 0 q))
    (fun n h q h0 => by
      have e := hfirst ⟨n, lt_N h⟩ h0 q
      have r := hrun ⟨n, lt_N h⟩ q
      dsimp only at e r
      rw [e, r, h0])
    (fun n h q h0 => by
      have e := hnext n (lt_N h) h0 q
      have r := hrun ⟨n + 1, lt_N h⟩ q
      dsimp only at e r
      rw [e, r])
    t.val (lt_256 t) (j 1)
  rw [row0 j]
  exact key

/-- The forget gate's accumulator after point `t`. -/
theorem forget (c : Dev nD) (t : Fin cfg0.N) (j : S1x256.Idx) :
    ((outsAt0 m c t.val t.isLt).2.1 : Vec Ideal S1x256 .f32) j
      = upTo (rowX m c) (V m c main_arg3 : Vec Ideal S16384x8192 .f32) (col t.val (j 1)) (t.val % 8) :=
  gate m c (V m c main_arg3) (fun n h => (outsAt0 m c n h).2.1) (fun t => iblk m c 1 t)
    (fun t y i h0 h1 => Blocks.forgetBlock m c t y i h0 h1)
    (fun t h0 q => by
      have h1 : ¬t.val % 8 = 7 := by omega
      refine (congrFun (AtPoint.forget_first m c t h0 h1) (ix2 0 q)).trans ?_
      refine (BlockStep.forget_apply (iblk m c 0 t) (k0_pay3 (F := Ideal)) (iblk m c 1 t) (ix2 0 q)).trans ?_
      rw [BlockStep.zeroF_apply])
    (fun n h h0 q => by
      have e : (outsAt0 m c (n + 1) h).2.1 = k0_pay8 (iblk m c 0 ⟨n + 1, h⟩) ((outsAt0 m c n (Nat.lt_of_succ_lt h)).2.1) (iblk m c 1 ⟨n + 1, h⟩) := by
        by_cases h1 : (n + 1) % 8 = 7
        · exact AtPoint.forget_last m c ⟨n + 1, h⟩ h0 h1
        · exact AtPoint.forget_middle m c ⟨n + 1, h⟩ h0 h1
      refine (congrFun e (ix2 0 q)).trans ?_
      exact BlockStep.forget_apply (iblk m c 0 ⟨n + 1, h⟩) _ (iblk m c 1 ⟨n + 1, h⟩) (ix2 0 q))
    t j

/-- The input gate's accumulator after point `t`. -/
theorem input (c : Dev nD) (t : Fin cfg0.N) (j : S1x256.Idx) :
    ((outsAt0 m c t.val t.isLt).2.2.1 : Vec Ideal S1x256 .f32) j
      = upTo (rowX m c) (V m c main_arg5 : Vec Ideal S16384x8192 .f32) (col t.val (j 1)) (t.val % 8) :=
  gate m c (V m c main_arg5) (fun n h => (outsAt0 m c n h).2.2.1) (fun t => iblk m c 2 t)
    (fun t y i h0 h1 => Blocks.inputBlock m c t y i h0 h1)
    (fun t h0 q => by
      have h1 : ¬t.val % 8 = 7 := by omega
      refine (congrFun (AtPoint.input_first m c t h0 h1) (ix2 0 q)).trans ?_
      refine (BlockStep.input_apply (iblk m c 0 t) (k0_pay4 (F := Ideal)) (iblk m c 2 t) (ix2 0 q)).trans ?_
      rw [BlockStep.zeroI_apply])
    (fun n h h0 q => by
      have e : (outsAt0 m c (n + 1) h).2.2.1 = k0_pay9 (iblk m c 0 ⟨n + 1, h⟩) ((outsAt0 m c n (Nat.lt_of_succ_lt h)).2.2.1) (iblk m c 2 ⟨n + 1, h⟩) := by
        by_cases h1 : (n + 1) % 8 = 7
        · exact AtPoint.input_last m c ⟨n + 1, h⟩ h0 h1
        · exact AtPoint.input_middle m c ⟨n + 1, h⟩ h0 h1
      refine (congrFun e (ix2 0 q)).trans ?_
      exact BlockStep.input_apply (iblk m c 0 ⟨n + 1, h⟩) _ (iblk m c 2 ⟨n + 1, h⟩) (ix2 0 q))
    t j

/-- The candidate's accumulator after point `t`. -/
theorem candidate (c : Dev nD) (t : Fin cfg0.N) (j : S1x256.Idx) :
    ((outsAt0 m c t.val t.isLt).2.2.2.1 : Vec Ideal S1x256 .f32) j
      = upTo (rowX m c) (V m c main_arg7 : Vec Ideal S16384x8192 .f32) (col t.val (j 1)) (t.val % 8) :=
  gate m c (V m c main_arg7) (fun n h => (outsAt0 m c n h).2.2.2.1) (fun t => iblk m c 3 t)
    (fun t y i h0 h1 => Blocks.candidateBlock m c t y i h0 h1)
    (fun t h0 q => by
      have h1 : ¬t.val % 8 = 7 := by omega
      refine (congrFun (AtPoint.candidate_first m c t h0 h1) (ix2 0 q)).trans ?_
      refine (BlockStep.candidate_apply (iblk m c 0 t) (k0_pay5 (F := Ideal)) (iblk m c 3 t) (ix2 0 q)).trans ?_
      rw [BlockStep.zeroG_apply])
    (fun n h h0 q => by
      have e : (outsAt0 m c (n + 1) h).2.2.2.1 = k0_pay10 (iblk m c 0 ⟨n + 1, h⟩) ((outsAt0 m c n (Nat.lt_of_succ_lt h)).2.2.2.1) (iblk m c 3 ⟨n + 1, h⟩) := by
        by_cases h1 : (n + 1) % 8 = 7
        · exact AtPoint.candidate_last m c ⟨n + 1, h⟩ h0 h1
        · exact AtPoint.candidate_middle m c ⟨n + 1, h⟩ h0 h1
      refine (congrFun e (ix2 0 q)).trans ?_
      exact BlockStep.candidate_apply (iblk m c 0 ⟨n + 1, h⟩) _ (iblk m c 3 ⟨n + 1, h⟩) (ix2 0 q))
    t j

/-- The output gate's accumulator after point `t`. -/
theorem output (c : Dev nD) (t : Fin cfg0.N) (j : S1x256.Idx) :
    ((outsAt0 m c t.val t.isLt).2.2.2.2 : Vec Ideal S1x256 .f32) j
      = upTo (rowX m c) (V m c main_arg9 : Vec Ideal S16384x8192 .f32) (col t.val (j 1)) (t.val % 8) :=
  gate m c (V m c main_arg9) (fun n h => (outsAt0 m c n h).2.2.2.2) (fun t => iblk m c 4 t)
    (fun t y i h0 h1 => Blocks.outputBlock m c t y i h0 h1)
    (fun t h0 q => by
      have h1 : ¬t.val % 8 = 7 := by omega
      refine (congrFun (AtPoint.output_first m c t h0 h1) (ix2 0 q)).trans ?_
      refine (BlockStep.output_apply (iblk m c 0 t) (k0_pay6 (F := Ideal)) (iblk m c 4 t) (ix2 0 q)).trans ?_
      rw [BlockStep.zeroO_apply])
    (fun n h h0 q => by
      have e : (outsAt0 m c (n + 1) h).2.2.2.2 = k0_pay1 (k0_pay7 (iblk m c 0 ⟨n + 1, h⟩)) ((outsAt0 m c n (Nat.lt_of_succ_lt h)).2.2.2.2) (iblk m c 4 ⟨n + 1, h⟩) := by
        by_cases h1 : (n + 1) % 8 = 7
        · exact AtPoint.output_last m c ⟨n + 1, h⟩ h0 h1
        · exact AtPoint.output_middle m c ⟨n + 1, h⟩ h0 h1
      refine (congrFun e (ix2 0 q)).trans ?_
      exact BlockStep.output_apply (iblk m c 0 ⟨n + 1, h⟩) _ (iblk m c 4 ⟨n + 1, h⟩) (ix2 0 q))
    t j

/-- THE OUTPUT BLOCK at the last point of a column block, entry by entry: the cell update of the four whole
    contractions plus the bias rows' entries, and the old cell entry, all at column `256 (t / 8) + j`. -/
theorem out_entry (c : Dev nD) (t : Fin cfg0.N) (h7 : t.val % 8 = 7) (j : S1x256.Idx) :
    ((outsAt0 m c t.val t.isLt).1 : Vec Ideal S1x256 .f32) j
      = cell
          (dotCol (rowX m c) (V m c main_arg3 : Vec Ideal S16384x8192 .f32) (col t.val (j 1))
            + (V m c main_v1 : Vec Ideal S1x8192 .f32) (ix2 0 (col t.val (j 1))))
          (dotCol (rowX m c) (V m c main_arg5 : Vec Ideal S16384x8192 .f32) (col t.val (j 1))
            + (V m c main_v2 : Vec Ideal S1x8192 .f32) (ix2 0 (col t.val (j 1))))
          (dotCol (rowX m c) (V m c main_arg7 : Vec Ideal S16384x8192 .f32) (col t.val (j 1))
            + (V m c main_v3 : Vec Ideal S1x8192 .f32) (ix2 0 (col t.val (j 1))))
          (dotCol (rowX m c) (V m c main_arg9 : Vec Ideal S16384x8192 .f32) (col t.val (j 1))
            + (V m c main_v4 : Vec Ideal S1x8192 .f32) (ix2 0 (col t.val (j 1))))
          ((V m c main_arg2 : Vec Ideal S1x8192 .f32) (ix2 0 (col t.val (j 1)))) := by
  have h0 : ¬t.val % 8 = 0 := by omega
  have hQ : (col t.val (j 1)).val = 256 * (t.val / 8) + (j 1).val := col_val t.val (lt_256 t) (j 1)
  have e : (outsAt0 m c t.val t.isLt).1
      = k0_pay2 ((outsAt0 m c t.val t.isLt).2.1) (iblk m c 5 t) ((outsAt0 m c t.val t.isLt).2.2.1) (iblk m c 6 t)
          ((outsAt0 m c t.val t.isLt).2.2.2.1) (iblk m c 7 t) ((outsAt0 m c t.val t.isLt).2.2.2.2) (iblk m c 8 t) (iblk m c 9 t) := by
    rw [AtPoint.forget_last m c t h0 h7, AtPoint.input_last m c t h0 h7, AtPoint.candidate_last m c t h0 h7,
      AtPoint.output_last m c t h0 h7]
    exact AtPoint.out_last m c t h0 h7
  refine (congrFun e j).trans ?_
  refine (BlockStep.finish_apply _ _ _ _ _ _ _ _ _ j).trans ?_
  have hu : ∀ W : Vec Ideal S16384x8192 .f32,
      upTo (rowX m c) W (col t.val (j 1)) (t.val % 8) = dotCol (rowX m c) W (col t.val (j 1)) :=
    fun W => upTo_at_last (rowX m c) W t.val h7 (j 1)
  have hf := congrArg₂ (· + ·) ((forget m c t j).trans (hu _)) (Blocks.forgetBias m c t j (ix2 0 (col t.val (j 1))) rfl hQ)
  have hi := congrArg₂ (· + ·) ((input m c t j).trans (hu _)) (Blocks.inputBias m c t j (ix2 0 (col t.val (j 1))) rfl hQ)
  have hg := congrArg₂ (· + ·) ((candidate m c t j).trans (hu _)) (Blocks.candidateBias m c t j (ix2 0 (col t.val (j 1))) rfl hQ)
  have ho := congrArg₂ (· + ·) ((output m c t j).trans (hu _)) (Blocks.outputBias m c t j (ix2 0 (col t.val (j 1))) rfl hQ)
  have hc := Blocks.cellBlock m c t j (ix2 0 (col t.val (j 1))) rfl hQ
  exact congr (congr (congr (congr (congrArg cell hf) hi) hg) ho) hc

end Cert.KernelIdeal.Accum

end
-- ==== Proof.KernelValue.lean ====
/-
  The kernel's result array is one step of the LSTM cell of the argument arrays.

  The region finds five arrays the host made from the arguments: the joined row [h, x] and the four bias vectors laid
  out as rows; the weights and the old cell state are the arguments themselves. The output's window is written back at
  the last point of each of the 32 column blocks, and what is written there is, entry by entry, the cell update of the
  four whole contractions plus bias entries at that column (the accumulators are running sums that are complete
  there). Column block n covers columns 256 n to 256 n + 255 of the one row, so the 32 write-backs cover the array,
  and the array ends holding the cell step everywhere.

  The blocks-to-array part (membership in a block, the cover, the whole-array post, the run) follows the steps of the
  library's closed form for pointwise kernels; the cover here is by arithmetic: column q lies in block q / 256.
-/
import proofs.«140054_j66554813218861_1_alg».proof.Proof.Gen.KernelIdeal.Value
import proofs.«140054_j66554813218861_1_alg».proof.Proof.Accum
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Lstm

variable (m : (ℓ : Loc nD τ sig) → Buf (Elt Ideal) ℓ) (ρ : Dev nD → PrngReg)

/-! ## The arrays the host makes before the region -/

/-- The joined row is the concatenation of the second argument and the first. -/
theorem row_eq (c : Dev nD) : (V m c main_v0 : Vec Ideal S1x16384 .f32)
    = concatenate S1x16384 1 [⟨S1x8192, m ((c : Thread nD τ).loc main_arg1)⟩, ⟨S1x8192, m ((c : Thread nD τ).loc main_arg0)⟩]
        concatenates_S1x8192_S1x8192_S1x16384_d1 := by
  dsimp only [Gen.V, Gen.hostOps0]; after_results

/-- The four bias rows are the bias vectors laid out as one row each. -/
theorem biasF_eq (c : Dev nD) : (V m c main_v1 : Vec Ideal S1x8192 .f32)
    = shapeCast S1x8192 (m ((c : Thread nD τ).loc main_arg4)) shapeCasts_S8192_S1x8192 := by
  dsimp only [Gen.V, Gen.hostOps0]; after_results; rfl
theorem biasI_eq (c : Dev nD) : (V m c main_v2 : Vec Ideal S1x8192 .f32)
    = shapeCast S1x8192 (m ((c : Thread nD τ).loc main_arg6)) shapeCasts_S8192_S1x8192 := by
  dsimp only [Gen.V, Gen.hostOps0]; after_results; rfl
theorem biasG_eq (c : Dev nD) : (V m c main_v3 : Vec Ideal S1x8192 .f32)
    = shapeCast S1x8192 (m ((c : Thread nD τ).loc main_arg8)) shapeCasts_S8192_S1x8192 := by
  dsimp only [Gen.V, Gen.hostOps0]; after_results; rfl
theorem biasO_eq (c : Dev nD) : (V m c main_v4 : Vec Ideal S1x8192 .f32)
    = shapeCast S1x8192 (m ((c : Thread nD τ).loc main_arg10)) shapeCasts_S8192_S1x8192 := by
  dsimp only [Gen.V, Gen.hostOps0]; after_results; rfl

/-- A bias row's entry of column `Q` is the bias vector's entry `Q`. -/
theorem biasRow_apply (b : Vec Ideal S8192 .f32) (Q : Fin 8192) :
    shapeCast S1x8192 b shapeCasts_S8192_S1x8192 (ix2 0 Q) = b (ix1 Q) := by
  rw [Cert.Lib.Dense.shapeCast_row]; rfl

/-! ## The result -/

/-- The cell step of the argument arrays. -/
abbrev result (c : Dev nD) : Vec Ideal S1x8192 .f32 :=
  step (concatenate S1x16384 1 [⟨S1x8192, m ((c : Thread nD τ).loc main_arg1)⟩, ⟨S1x8192, m ((c : Thread nD τ).loc main_arg0)⟩]
        concatenates_S1x8192_S1x8192_S1x16384_d1)
    (m ((c : Thread nD τ).loc main_arg3)) (m ((c : Thread nD τ).loc main_arg5)) (m ((c : Thread nD τ).loc main_arg7))
    (m ((c : Thread nD τ).loc main_arg9)) (m ((c : Thread nD τ).loc main_arg4)) (m ((c : Thread nD τ).loc main_arg6))
    (m ((c : Thread nD τ).loc main_arg8)) (m ((c : Thread nD τ).loc main_arg10)) (m ((c : Thread nD τ).loc main_arg2))

/-- The output block written at the last point of a column block, entry by entry, is the cell step at that column. -/
theorem out_eq (c : Dev nD) (t : Fin cfg0.N) (h7 : t.val % 8 = 7) (j : S1x256.Idx) :
    ((outsAt0 m c t.val t.isLt).1 : Vec Ideal S1x256 .f32) j = result m c (ix2 0 (col t.val (j 1))) := by
  rw [Accum.out_entry m c t h7 j]
  simp only [Accum.rowX]
  rw [row_eq m c, V_main_arg3 m c, V_main_arg5 m c, V_main_arg7 m c, V_main_arg9 m c, V_main_arg2 m c,
    biasF_eq m c, biasI_eq m c, biasG_eq m c, biasO_eq m c, biasRow_apply, biasRow_apply, biasRow_apply, biasRow_apply]
  rfl

/-- WHAT A WRITE-BACK WRITES is its block of the cell step. -/
theorem flushed_eq (c : Dev nD) (t : Fin cfg0.N) (hf : (cfg0.win 10).flush t = true) :
    (dats m 0 c).flushed 10 t = ((cfg0.win 10).blk t).view.read (Elt Ideal) (result m c) := by
  have h7 : t.val % 8 = 7 := (flush0_10 t).mp hf
  rw [Cert.KernelIdeal.Value.flushed10]
  funext j
  show ((outsAt0 m c t.val t.isLt).1 : Vec Ideal S1x256 .f32) j = result m c (((cfg0.win 10).blk t).view.emb j)
  have hemb : ((cfg0.win 10).blk t).view.emb j = ix2 0 (col t.val (j 1)) := by
    funext a; apply Fin.ext
    match a with
    | ⟨0, _⟩ =>
      show win0_10.index t 0 * 1 + 1 * (j 0).val = 0
      rw [(Blocks.idx10 t).1]; have hy : (j 0).val < 1 := (j 0).isLt; omega
    | ⟨1, _⟩ =>
      show win0_10.index t 1 * 256 + 1 * (j 1).val = (col t.val (j 1)).val
      rw [(Blocks.idx10 t).2, col_val t.val (Accum.lt_256 t) (j 1)]; omega
  rw [hemb]
  exact out_eq m c t h7 j

/-- An index of the row is in point `t`'s block iff each coordinate is in the block's range on its axis. -/
theorem mem_blk (t : Fin cfg0.N) (i : S1x8192.Idx) :
    i ∈ ((cfg0.win 10).blk t).view.set ↔ ∀ a : Fin 2, win0_10.index t a * S1x256.size a ≤ (i a).val
      ∧ (i a).val < win0_10.index t a * S1x256.size a + S1x256.size a := by
  show i ∈ ((View.whole main_v5).slice (win0_10.rect t)).set ↔ _
  rw [View.set_slice_whole, Rect.mem_set_unit]
  exact Iff.rfl

/-- Column `q` is written back by the last point of column block `q / 256`. -/
theorem cover (i : S1x8192.Idx) : ∃ t : Fin cfg0.N, (cfg0.win 10).flush t = true ∧ i ∈ ((cfg0.win 10).blk t).view.set := by
  have hi0 : (i 0).val < 1 := (i 0).isLt
  have hi1 : (i 1).val < 8192 := (i 1).isLt
  have hN : cfg0.N = 256 := N_0
  have hlt : 8 * ((i 1).val / 256) + 7 < cfg0.N := by omega
  refine ⟨⟨8 * ((i 1).val / 256) + 7, hlt⟩, (flush0_10 _).mpr (by show (8 * ((i 1).val / 256) + 7) % 8 = 7; omega), ?_⟩
  rw [mem_blk]
  have e := Blocks.idx10 ⟨8 * ((i 1).val / 256) + 7, hlt⟩
  have e1 : (8 * ((i 1).val / 256) + 7) / 8 = (i 1).val / 256 := by omega
  intro a
  match a with
  | ⟨0, _⟩ =>
    show win0_10.index ⟨8 * ((i 1).val / 256) + 7, hlt⟩ 0 * 1 ≤ (i 0).val ∧ (i 0).val < win0_10.index ⟨8 * ((i 1).val / 256) + 7, hlt⟩ 0 * 1 + 1
    rw [e.1]; omega
  | ⟨1, _⟩ =>
    show win0_10.index ⟨8 * ((i 1).val / 256) + 7, hlt⟩ 1 * 256 ≤ (i 1).val ∧ (i 1).val < win0_10.index ⟨8 * ((i 1).val / 256) + 7, hlt⟩ 1 * 256 + 256
    rw [e.2]; dsimp only; rw [e1]; omega

/-- So the result array ends holding the cell step. -/
theorem final (c : Dev nD) : (dats m 0 c).arrAt 10 cfg0.N = result m c :=
  (dats m 0 c).arrAt_eq_of_cover 10 (result m c) (flushed_eq m c) cover

/-- The run, read: the result array at the cell step of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Result

end
-- ==== Proof.RefValue.lean ====
/-
  The reference program, read at one entry of its result, is one step of the LSTM cell.

  The program joins the two input rows into one row X of 16384 entries and, for each of the four gates, contracts X
  with the gate's weight matrix over all 16384 positions and adds the gate's bias, broadcast along the single row.
  Three of the four sums go through the logistic function, spelled as 1 / (1 + e^(-z)) with the word of 1.0 for
  both ones; the fourth (the candidate) goes through tanh. The result entry of column q is

      σ(o) * tanh (c * σ(f) + tanh (g) * σ(i)),

  where f, i, g, o are the four pre-activations of column q and c is the old cell entry of that column.

  Every stage of the program acts entry by entry except the four contractions and the broadcasts of the biases, so
  the whole argument is: read each stage at the index, identify the positions the contractions and the broadcasts read
  (the result has a single row, so its row coordinate is zero; the contraction for column q reads X at (0, k) and
  the weights at (k, q); a broadcast bias is read at q), and fold the spelled logistic. The joined row X is kept
  as it stands: nothing here reads the concatenation at an index.
-/
import proofs.«140054_j66554813218861_1_alg».proof.Proof.Gen.ReferenceIdeal.Read
import proofs.«140054_j66554813218861_1_alg».proof.Proof.Cell

noncomputable section

namespace Cert.ReferenceIdeal.RefValue

open Cert.ReferenceIdeal Cert.ReferenceIdeal.Read Idealize.ShloMosaic Idealize.ShloMosaic.ValueIdx
open scoped BigOperators

/-! ## The positions read by the contractions and the broadcasts

The result has one row, so the row coordinate of a result index is zero; position k of the contraction for the
result index i reads the joined row at (0, k) and the weight matrix at (k, column of i). -/

/-- The row coordinate of an index into a one-row array is zero. -/
theorem row_zero (i : S1x8192.Idx) : (i 0).val = 0 := by
  have h : (i 0).val < 1 := (i 0).isLt
  omega

theorem lidx_v1 (i : S1x8192.Idx) (k : Fin 16384) : lidx_main_v1 i k = ix2 0 k := by
  funext a
  match a with
  | ⟨0, _⟩ => exact Fin.ext (row_zero i)
  | ⟨1, _⟩ => rfl

theorem lidx_v5 (i : S1x8192.Idx) (k : Fin 16384) : lidx_main_v5 i k = ix2 0 k := lidx_v1 i k
theorem lidx_v14 (i : S1x8192.Idx) (k : Fin 16384) : lidx_main_v14 i k = ix2 0 k := lidx_v1 i k
theorem lidx_v23 (i : S1x8192.Idx) (k : Fin 16384) : lidx_main_v23 i k = ix2 0 k := lidx_v1 i k

theorem ridx_v1 (i : S1x8192.Idx) (k : Fin 16384) : ridx_main_v1 i k = ix2 k (i 1) := by
  funext a
  match a with
  | ⟨0, _⟩ => rfl
  | ⟨1, _⟩ => rfl

theorem ridx_v5 (i : S1x8192.Idx) (k : Fin 16384) : ridx_main_v5 i k = ix2 k (i 1) := ridx_v1 i k
theorem ridx_v14 (i : S1x8192.Idx) (k : Fin 16384) : ridx_main_v14 i k = ix2 k (i 1) := ridx_v1 i k
theorem ridx_v23 (i : S1x8192.Idx) (k : Fin 16384) : ridx_main_v23 i k = ix2 k (i 1) := ridx_v1 i k

/-- A bias broadcast along the single row is read at the column. -/
theorem bidx_v2 (i : S1x8192.Idx) : idx_main_v2 i = ix1 (i 1) := by
  funext a
  match a with
  | ⟨0, _⟩ => rfl

theorem bidx_v6 (i : S1x8192.Idx) : idx_main_v6 i = ix1 (i 1) := bidx_v2 i
theorem bidx_v15 (i : S1x8192.Idx) : idx_main_v15 i = ix1 (i 1) := bidx_v2 i
theorem bidx_v24 (i : S1x8192.Idx) : idx_main_v24 i = ix1 (i 1) := bidx_v2 i

/-! ## The reference is the cell step -/

theorem result_eq (x0 x1 x2 : (⟨S1x8192, .f32⟩ : BufTy).Contents (Elt Ideal)) (x3 : (⟨S16384x8192, .f32⟩ : BufTy).Contents (Elt Ideal)) (x4 : (⟨S8192, .f32⟩ : BufTy).Contents (Elt Ideal)) (x5 : (⟨S16384x8192, .f32⟩ : BufTy).Contents (Elt Ideal)) (x6 : (⟨S8192, .f32⟩ : BufTy).Contents (Elt Ideal)) (x7 : (⟨S16384x8192, .f32⟩ : BufTy).Contents (Elt Ideal)) (x8 : (⟨S8192, .f32⟩ : BufTy).Contents (Elt Ideal)) (x9 : (⟨S16384x8192, .f32⟩ : BufTy).Contents (Elt Ideal)) (x10 : (⟨S8192, .f32⟩ : BufTy).Contents (Elt Ideal)) :
    Cert.ReferenceIdeal.Read.val_main_v36 (F := Ideal) x0 x1 x2 x3 x4 x5 x6 x7 x8 x9 x10
      = Cert.Lstm.step (Cert.ReferenceIdeal.Read.val_main_v0 (F := Ideal) x0 x1) x3 x5 x7 x9 x4 x6 x8 x10 x2 := by
  funext i
  rw [val_main_v36_apply,
    -- the output gate
    val_main_v31_apply, val_main_v30_apply, val_main_cst_4_apply, val_main_v29_apply, val_main_v28_apply,
    val_main_cst_3_apply, val_main_v27_apply, val_main_v26_apply, val_main_v25_apply, val_main_v23_apply,
    val_main_v24_apply,
    -- the new cell entry under tanh
    val_main_v35_apply, val_main_v34_apply,
    -- the old cell entry times the forget gate
    val_main_v32_apply, val_main_v13_apply, val_main_v12_apply, val_main_cst_0_apply, val_main_v11_apply,
    val_main_v10_apply, val_main_cst_apply, val_main_v9_apply, val_main_v8_apply, val_main_v7_apply,
    val_main_v5_apply, val_main_v6_apply,
    -- the candidate times the input gate
    val_main_v33_apply, val_main_v4_apply, val_main_v3_apply, val_main_v1_apply, val_main_v2_apply,
    val_main_v22_apply, val_main_v21_apply, val_main_cst_2_apply, val_main_v20_apply, val_main_v19_apply,
    val_main_cst_1_apply, val_main_v18_apply, val_main_v17_apply, val_main_v16_apply, val_main_v14_apply,
    val_main_v15_apply]
  simp only [lidx_v1, lidx_v5, lidx_v14, lidx_v23, ridx_v1, ridx_v5, ridx_v14, ridx_v23, bidx_v2, bidx_v6, bidx_v15,
    bidx_v24, Ideal.mulf_def, Ideal.addf_def, Ideal.hostDivf_def, Ideal.hostNegf_def, Ideal.negf_def,
    Ideal.hostUnary_exp_def, Ideal.hostUnary_tanh_def, Ideal.ofBits_def, Cert.Lstm.logistic_spelled]
  rfl

end Cert.ReferenceIdeal.RefValue

end
-- ==== Proof.lean ====
/-
  The certificate of one LSTM cell step at batch one: a kernel that accumulates the four gates' contractions block by
  block against the reference that takes each contraction at once.

  Both programs join the two input rows into one row X of 16384 entries and form, for each of the four gates, column by
  column, the contraction of X with the gate's 16384 x 8192 weights plus the gate's bias; the new hidden entry of a
  column is σ(o) * tanh (c * σ(f) + tanh (g) * σ(i)) with σ the logistic function. The kernel walks a grid of 32 column
  blocks by 8 contraction steps: at a step it adds the product of 2048 entries of X with a 2048 x 256 block of each
  gate's weights to that gate's accumulator, which it reset at the block's first step, and at the block's eighth step
  it adds the biases and writes the cell update of the column block. The reference contracts over all 16384 positions
  at once and spells the logistic function as 1 / (1 + e^(-z)).

  Over the extended reals the two agree entry by entry: narrowing the kernel's matrix operands to a shorter float
  format is the identity, a sum over 16384 positions is the sum of its eight consecutive runs of 2048 (addition is
  commutative and associative with neutral element zero, so no finiteness is needed), and the kernel's logistic
  operation is the reference's spelling of it. So the precondition is not used for the values.

  The three frames: the kernel's two are the generated frame runs; the reference has no kernel, and its frame is its
  generated run with the result dropped. The ideal pass rewrote nothing, so there is nothing to preserve.
-/
import proofs.«140054_j66554813218861_1_alg».proof.Defs
import proofs.«140054_j66554813218861_1_alg».proof.Proof.Gen.Kernel
import proofs.«140054_j66554813218861_1_alg».proof.Proof.Gen.Kernel.Skeleton
import proofs.«140054_j66554813218861_1_alg».proof.Proof.Gen.Kernel.Launch
import proofs.«140054_j66554813218861_1_alg».proof.Proof.Gen.Kernel.Points
import proofs.«140054_j66554813218861_1_alg».proof.Proof.Gen.Kernel.Frame
import proofs.«140054_j66554813218861_1_alg».proof.Proof.Gen.KernelIdeal
import proofs.«140054_j66554813218861_1_alg».proof.Proof.Gen.KernelIdeal.Skeleton
import proofs.«140054_j66554813218861_1_alg».proof.Proof.Gen.KernelIdeal.Launch
import proofs.«140054_j66554813218861_1_alg».proof.Proof.Gen.KernelIdeal.Points
import proofs.«140054_j66554813218861_1_alg».proof.Proof.Gen.KernelIdeal.Frame
import proofs.«140054_j66554813218861_1_alg».proof.Proof.Gen.ReferenceIdeal
import proofs.«140054_j66554813218861_1_alg».proof.Proof.Gen.Pre_finite_inputs
import proofs.«140054_j66554813218861_1_alg».proof.Proof.Gen.KernelIdeal.Value
import proofs.«140054_j66554813218861_1_alg».proof.Proof.Gen.ReferenceIdeal.Run
import proofs.«140054_j66554813218861_1_alg».proof.Proof.Gen.ReferenceIdeal.Read
import proofs.«140054_j66554813218861_1_alg».proof.Proof.KernelValue
import proofs.«140054_j66554813218861_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the cell step of the arguments in their result arrays: the kernel's by its accumulated
    blocks, the reference's by reading its stages at an entry; from memories that agree on the arguments these are
    one array. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v36_eq, Cert.ReferenceIdeal.RefValue.result_eq, a0, a1, a2, a3, a4, a5, a6, a7,
    a8, a9, a10]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
